-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x16 : Shape := ⟨2, ![8192, 16]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v15 : IVec S_ 1) (main_c_5 : IVec S_ 32) : IVec S_ 1 :=
  let main_v16 : IVec S8192 32 := broadcastInDim S8192 ![] bcast_S_S8192 main_c_5
  let main_v17 : IVec S8192 1 := cmpi .sge main_arg3 main_v16
  let main_c_6 : IVec S_ 32 := constantI S_ 32 8192#32
  let main_v18 : IVec S8192 32 := broadcastInDim S8192 ![] bcast_S_S8192 main_c_6
  let main_v19 : IVec S8192 1 := cmpi .slt main_arg3 main_v18
  let main_v20 : IVec S8192 1 := andi main_v17 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v15 main_v21
  main_v22

def fn {F : FTy → Type} [FloatOps F] (main_arg0 : FVec F S4096x8192 .f32) (main_arg1 : FVec F S8192x16 .f32) (main_arg2 : IVec S8192 32) (main_arg3 : IVec S8192 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_c_2 : IVec S_ 32 := constantI S_ 32 4294959104#32
  let main_v9 : IVec S8192 32 := broadcastInDim S8192 ![] bcast_S_S8192 main_c_2
  let main_v10 : IVec S8192 1 := cmpi .sge main_arg2 main_v9
  let main_c_3 : IVec S_ 32 := constantI S_ 32 8192#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  let main_c_5 : IVec S_ 32 := constantI S_ 32 4294959104#32
  fn_part1 (F := F) main_arg3 main_v15 main_c_5
-- ==== Kernel.lean ====
abbrev S4096x8192 : Shape := ⟨2, ![4096, 8192]⟩
abbrev S8192x16 : Shape := ⟨2, ![8192, 16]⟩
abbrev S8192 : Shape := ⟨1, ![8192]⟩
abbrev S16x4 : Shape := ⟨2, ![16, 4]⟩
abbrev S_ : Shape := ⟨0, ![]⟩
abbrev S8192x1 : Shape := ⟨2, ![8192, 1]⟩
abbrev S8192x4 : Shape := ⟨2, ![8192, 4]⟩
abbrev S4x8192 : Shape := ⟨2, ![4, 8192]⟩
abbrev S1 : Shape := ⟨1, ![1]⟩
abbrev S1x1 : Shape := ⟨2, ![1, 1]⟩
abbrev S4x2048 : Shape := ⟨2, ![4, 2048]⟩
abbrev S512x2048 : Shape := ⟨2, ![512, 2048]⟩
abbrev S1x2048 : Shape := ⟨2, ![1, 2048]⟩

abbrev nBuf : Space → Nat
  | .hbm => 68
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x16, .f32⟩
  | .hbm, ⟨2, _⟩ => ⟨S8192, .i32⟩
  | .hbm, ⟨3, _⟩ => ⟨S8192, .i32⟩
  | .hbm, ⟨4, _⟩ => ⟨S16x4, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x16, .f32⟩
  | .hbm, ⟨12, _⟩ => ⟨S8192x16, .f32⟩
  | .hbm, ⟨13, _⟩ => ⟨S8192x16, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x16, .f32⟩
  | .hbm, ⟨18, _⟩ => ⟨S8192x16, .f32⟩
  | .hbm, ⟨19, _⟩ => ⟨S8192x4, .f32⟩
  | .hbm, ⟨20, _⟩ => ⟨S4x8192, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S1, .i32⟩
  | .hbm, ⟨30, _⟩ => ⟨S_, .i32⟩
  | .hbm, ⟨31, _⟩ => ⟨S8192x1, .i32⟩
  | .hbm, ⟨32, _⟩ => ⟨S8192x1, .i1⟩
  | .hbm, ⟨33, _⟩ => ⟨S1x1, .i32⟩
  | .hbm, ⟨34, _⟩ => ⟨S8192x1, .i32⟩
  | .hbm, ⟨35, _⟩ => ⟨S8192x1, .i1⟩
  | .hbm, ⟨36, _⟩ => ⟨S8192x1, .i1⟩
  | .hbm, ⟨37, _⟩ => ⟨S_, .i1⟩
  | .hbm, ⟨38, _⟩ => ⟨S8192, .i1⟩
  | .hbm, ⟨39, _⟩ => ⟨S4096x8192, .f32⟩
  | .hbm, ⟨40, _⟩ => ⟨S4096x8192, .i1⟩
  | .hbm, ⟨41, _⟩ => ⟨S_, .f32⟩
  | .hbm, ⟨42, _⟩ => ⟨S4096x8192, .f32⟩
  | .hbm, ⟨43, _⟩ => ⟨S4096x8192, .f32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S8192x1, .i32⟩
  | .hbm, ⟨52, _⟩ => ⟨S1, .i32⟩
  | .hbm, ⟨53, _⟩ => ⟨S_, .i32⟩
  | .hbm, ⟨54, _⟩ => ⟨S8192x1, .i32⟩
  | .hbm, ⟨55, _⟩ => ⟨S8192x1, .i1⟩
  | .hbm, ⟨56, _⟩ => ⟨S1x1, .i32⟩
  | .hbm, ⟨57, _⟩ => ⟨S8192x1, .i32⟩
  | .hbm, ⟨58, _⟩ => ⟨S8192x1, .i1⟩
  | .hbm, ⟨59, _⟩ => ⟨S8192x1, .i1⟩
  | .hbm, ⟨60, _⟩ => ⟨S_, .i1⟩
  | .hbm, ⟨61, _⟩ => ⟨S8192, .i1⟩
  | .hbm, ⟨62, _⟩ => ⟨S4096x8192, .f32⟩
  | .hbm, ⟨63, _⟩ => ⟨S4096x8192, .i1⟩
  | .hbm, ⟨64, _⟩ => ⟨S_, .f32⟩
  | .hbm, ⟨65, _⟩ => ⟨S4096x8192, .f32⟩
  | .hbm, ⟨66, _⟩ => ⟨S4096x8192, .f32⟩
  | .hbm, ⟨67, _⟩ => ⟨S4096x8192, .f32⟩
  | .local _ .vmem, ⟨0, _⟩ => ⟨S4x2048, .f32⟩
  | .local _ .vmem, ⟨1, _⟩ => ⟨S4x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v13 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v14 : Ref sig .tc := ⟨.hbm, 66, rfl⟩
abbrev main_v15 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  transposes_S8192x4_S4x8192_1_0 : S8192x4.Transposes [1, 0] S4x8192
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S4096x8192_1 : S8192.BroadcastsInDim S4096x8192 (![1] : Fin 1 → Fin S4096x8192.rank)
  bcast_S_S4096x8192 : S_.BroadcastsInDim S4096x8192 (![] : Fin 0 → Fin S4096x8192.rank)
  inb_S4x2048_S1x2048_0_0 : ∀ a, (![0, 0] : Fin 2 → Nat) a + S1x2048.size a ≤ S4x2048.size a
  h_S1x2048 : 0 < S1x2048.numel
  shapeCasts_S1x2048_S1x2048 : S1x2048.ShapeCasts S1x2048
  inb_S4x2048_S1x2048_1_0 : ∀ a, (![1, 0] : Fin 2 → Nat) a + S1x2048.size a ≤ S4x2048.size a
  inb_S4x2048_S1x2048_2_0 : ∀ a, (![2, 0] : Fin 2 → Nat) a + S1x2048.size a ≤ S4x2048.size a
  inb_S4x2048_S1x2048_3_0 : ∀ a, (![3, 0] : Fin 2 → Nat) a + S1x2048.size a ≤ S4x2048.size a
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x2048_S512x2048 : S1x2048.Broadcasts S512x2048
  dot_S8192x16_S16x4_S8192x4_1_0_0_1_n_n_wf : DotDims.WF S8192x16 S16x4 S8192x4 [1] [0] [0] [1] [] []
  gather_S4096x8192_S8192x1_S4096x8192_0_1_n_n_1_1_40961_wf : GatherDims.WF S4096x8192 S8192x1 S4096x8192 [0] [1] [] [1] [] 1 ![4096, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048.size a ≤ S4x8192.size a
  hwx0_0 : ∀ i : grid0.Coords, EltTy.bits .f32 = 32 ∨ (Rect.block (s := S4x8192) S4x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x8192.size a
  hwx0_1 : ∀ i : grid0.Coords, EltTy.bits .f32 = 32 ∨ (Rect.block (s := S4096x8192) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x8192.size a
  hwx0_2 : ∀ i : grid0.Coords, EltTy.bits .f32 = 32 ∨ (Rect.block (s := S4096x8192) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x8192.size a
  hwx0_3 : ∀ i : grid0.Coords, EltTy.bits .f32 = 32 ∨ (Rect.block (s := S4096x8192) S512x2048.size (cc0_transform_3 i) (hinb0_3 i)).WholeWords (EltTy.packing .f32)

variable [Facts₀]

def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf
def gather_S4096x8192_S8192x1_S4096x8192_0_1_n_n_1_1_40961 : GatherDims S4096x8192 S8192x1 S4096x8192 where
  offsetDims := [0]
  collapsedSliceDims := [1]
  operandBatchingDims := []
  startIndicesBatchingDims := []
  startIndexMap := [1]
  indexVectorDim := 1
  sliceSizes := ![4096, 1]
  wf := gather_S4096x8192_S8192x1_S4096x8192_0_1_n_n_1_1_40961_wf

abbrev win0_0 : Pipeline.Window sig grid0 :=
  Pipeline.Window.ofSpec (Memref.whole main_v12) S4x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S8192x16 : Shape := ⟨2, ![8192, 16]⟩
abbrev S8192 : Shape := ⟨1, ![8192]⟩
abbrev S16x4 : Shape := ⟨2, ![16, 4]⟩
abbrev S_ : Shape := ⟨0, ![]⟩
abbrev S8192x1 : Shape := ⟨2, ![8192, 1]⟩
abbrev S8192x4 : Shape := ⟨2, ![8192, 4]⟩
abbrev S1x8192 : Shape := ⟨2, ![1, 8192]⟩

abbrev nBuf : Space → Nat
  | .hbm => 61
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x16, .f32⟩
  | .hbm, ⟨2, _⟩ => ⟨S8192, .i32⟩
  | .hbm, ⟨3, _⟩ => ⟨S8192, .i32⟩
  | .hbm, ⟨4, _⟩ => ⟨S16x4, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x16, .f32⟩
  | .hbm, ⟨12, _⟩ => ⟨S8192x16, .f32⟩
  | .hbm, ⟨13, _⟩ => ⟨S8192x16, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x16, .f32⟩
  | .hbm, ⟨18, _⟩ => ⟨S8192x16, .f32⟩
  | .hbm, ⟨19, _⟩ => ⟨S8192x4, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S4096x8192, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S4096x8192, .f32⟩
  | .hbm, ⟨38, _⟩ => ⟨S8192x1, .f32⟩
  | .hbm, ⟨39, _⟩ => ⟨S8192, .f32⟩
  | .hbm, ⟨40, _⟩ => ⟨S8192x1, .f32⟩
  | .hbm, ⟨41, _⟩ => ⟨S8192, .f32⟩
  | .hbm, ⟨42, _⟩ => ⟨S1x8192, .f32⟩
  | .hbm, ⟨43, _⟩ => ⟨S4096x8192, .f32⟩
  | .hbm, ⟨44, _⟩ => ⟨S4096x8192, .f32⟩
  | .hbm, ⟨45, _⟩ => ⟨S1x8192, .f32⟩
  | .hbm, ⟨46, _⟩ => ⟨S4096x8192, .f32⟩
  | .hbm, ⟨47, _⟩ => ⟨S4096x8192, .f32⟩
  | .hbm, ⟨48, _⟩ => ⟨S8192x1, .f32⟩
  | .hbm, ⟨49, _⟩ => ⟨S8192, .f32⟩
  | .hbm, ⟨50, _⟩ => ⟨S1x8192, .f32⟩
  | .hbm, ⟨51, _⟩ => ⟨S4096x8192, .f32⟩
  | .hbm, ⟨52, _⟩ => ⟨S4096x8192, .f32⟩
  | .hbm, ⟨53, _⟩ => ⟨S4096x8192, .f32⟩
  | .hbm, ⟨54, _⟩ => ⟨S8192x1, .f32⟩
  | .hbm, ⟨55, _⟩ => ⟨S8192, .f32⟩
  | .hbm, ⟨56, _⟩ => ⟨S4096x8192, .f32⟩
  | .hbm, ⟨57, _⟩ => ⟨S1x8192, .f32⟩
  | .hbm, ⟨58, _⟩ => ⟨S4096x8192, .f32⟩
  | .hbm, ⟨59, _⟩ => ⟨S4096x8192, .f32⟩
  | .hbm, ⟨60, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  slices_S8192x4_S8192x1_0_0 : S8192x4.Slices ![0, 0] S8192x1
  shapeCasts_S8192x1_S8192 : S8192x1.ShapeCasts S8192
  slices_S8192x4_S8192x1_0_1 : S8192x4.Slices ![0, 1] S8192x1
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S8192x4_S8192x1_0_2 : S8192x4.Slices ![0, 2] S8192x1
  slices_S8192x4_S8192x1_0_3 : S8192x4.Slices ![0, 3] S8192x1
  dot_S8192x16_S16x4_S8192x4_1_0_0_1_n_n_wf : DotDims.WF S8192x16 S16x4 S8192x4 [1] [0] [0] [1] [] []
  gather_S4096x8192_S8192x1_S4096x8192_0_1_n_n_1_1_40961_wf : GatherDims.WF S4096x8192 S8192x1 S4096x8192 [0] [1] [] [1] [] 1 ![4096, 1]

variable [Facts₀]

def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf
def gather_S4096x8192_S8192x1_S4096x8192_0_1_n_n_1_1_40961 : GatherDims S4096x8192 S8192x1 S4096x8192 where
  offsetDims := [0]
  collapsedSliceDims := [1]
  operandBatchingDims := []
  startIndicesBatchingDims := []
  startIndexMap := [1]
  indexVectorDim := 1
  sliceSizes := ![4096, 1]
  wf := gather_S4096x8192_S8192x1_S4096x8192_0_1_n_n_1_1_40961_wf

class Facts : Prop extends Facts₀ where

variable [Facts]
-- ==== Proof.Mix.lean ====
/-
  The soft mixture of sixteen binary logic gates, as one function of its three operands, and the
  layout facts that let two differently arranged programs be read as that function.

  Every gate is affine in (1, a, b, a·b), so a probability-weighted mixture of the gates at output
  column j is  c[j,0] + c[j,1]·a + c[j,2]·b + c[j,3]·(a·b)  with c = p · GATE_COEF (an [N, 4] table).
  Here a, b are the [B, N] arrays of gathered columns.  One program keeps the table as [N, 4] and
  reads column k of it through a slice, a reshape and two broadcasts; the other transposes it to
  [4, N] and reads row k.  Both readings give c[j, k] at output index (r, j).
-/
import Idealize.ShloMosaic.Lib.ValueIdx
import Idealize.ShloMosaic.Lib.ValueLayout
import Idealize.ShloMosaic.Lib.Pipeline.Value
import Idealize.ShloMosaic.PureOps.Reduce

noncomputable section

namespace Cert.GateMix

open Idealize.ShloMosaic Idealize.ShloMosaic.ValueIdx

abbrev SBN : Shape := ⟨2, ![4096, 8192]⟩
abbrev SN4 : Shape := ⟨2, ![8192, 4]⟩
abbrev SN1 : Shape := ⟨2, ![8192, 1]⟩
abbrev SN : Shape := ⟨1, ![8192]⟩
abbrev S1N : Shape := ⟨2, ![1, 8192]⟩
abbrev S4N : Shape := ⟨2, ![4, 8192]⟩

/-- The mixture at output index (r, j): the column-j coefficients applied to a[r, j] and b[r, j],
    summed left to right as both programs do. -/
def mix (C : SN4.Idx → EReal) (A B : SBN.Idx → EReal) : SBN.Idx → EReal := fun i =>
  C (ix2 (i 1 : Fin 8192) (0 : Fin 4)) + C (ix2 (i 1 : Fin 8192) (1 : Fin 4)) * A i
    + C (ix2 (i 1 : Fin 8192) (2 : Fin 4)) * B i + C (ix2 (i 1 : Fin 8192) (3 : Fin 4)) * (A i * B i)

theorem mix_apply (C : SN4.Idx → EReal) (A B : SBN.Idx → EReal) (r : Fin 4096) (j : Fin 8192) :
    mix C A B (ix2 r j) = C (ix2 j 0) + C (ix2 j 1) * A (ix2 r j) + C (ix2 j 2) * B (ix2 r j)
      + C (ix2 j 3) * (A (ix2 r j) * B (ix2 r j)) := rfl

/-- The same mixture read off the transposed [4, N] table: row k of it holds the k-th coefficients. -/
def rowMix (CT : S4N.Idx → EReal) (A B : SBN.Idx → EReal) : SBN.Idx → EReal := fun i =>
  CT (ix2 (0 : Fin 4) (i 1 : Fin 8192)) + CT (ix2 (1 : Fin 4) (i 1 : Fin 8192)) * A i
    + CT (ix2 (2 : Fin 4) (i 1 : Fin 8192)) * B i + CT (ix2 (3 : Fin 4) (i 1 : Fin 8192)) * (A i * B i)

theorem rowMix_apply (CT : S4N.Idx → EReal) (A B : SBN.Idx → EReal) (r : Fin 4096) (j : Fin 8192) :
    rowMix CT A B (ix2 r j) = CT (ix2 0 j) + CT (ix2 1 j) * A (ix2 r j) + CT (ix2 2 j) * B (ix2 r j)
      + CT (ix2 3 j) * (A (ix2 r j) * B (ix2 r j)) := rfl

variable {α : Type}

/-- Column `o` of an [N, 4] table, sliced out, flattened to [N], laid along the second axis of
    [1, N] and repeated down the B rows: at (r, j) it is the table's entry (j, o). -/
theorem col_apply (o : Nat) (ho : o < 4) (C : SN4.Idx → α)
    (h0 : SN4.Slices ![0, o] SN1) (h1 : SN1.ShapeCasts SN) (h2 : SN.BroadcastsInDim S1N ![1])
    (h3 : S1N.BroadcastsInDim SBN ![0, 1]) (r : Fin 4096) (j : Fin 8192) :
    broadcastInDim SBN ![0, 1] h3 (broadcastInDim S1N ![1] h2
      (shapeCast SN (extractStridedSlice SN1 ![0, o] C h0) h1)) (ix2 r j) = C (ix2 j ⟨o, ho⟩) := by
  refine (broadcastInDim_apply _ h3 _ (ix2 r j) (ix2 (0 : Fin 1) j) (fun a => ?_)).trans ?_
  · match a with
    | ⟨0, _⟩ => show 0 = if (1 : Nat) = 1 then 0 else r.val; rw [if_pos rfl]
    | ⟨1, _⟩ => show j.val = if (8192 : Nat) = 1 then 0 else j.val; rw [if_neg (by decide)]
  refine (broadcastInDim_apply _ h2 _ (ix2 (0 : Fin 1) j) (ix1 j) (fun a => ?_)).trans ?_
  · match a with
    | ⟨0, _⟩ => show j.val = if (8192 : Nat) = 1 then 0 else j.val; rw [if_neg (by decide)]
  refine (shapeCast_apply _ h1 (ix1 j) (ix2 j (0 : Fin 1)) ?_).trans ?_
  · rw [Shape.rowMajor_val_two, Shape.rowMajor_val_one]
    show j.val * 1 + 0 = j.val
    omega
  refine extractStridedSlice_apply _ C h0 (ix2 j (0 : Fin 1)) (ix2 j ⟨o, ho⟩) (fun a => ?_)
  match a with
  | ⟨0, _⟩ => show j.val = 0 + j.val; omega
  | ⟨1, _⟩ => show o = o + 0; omega

/-- The transposed [4, N] table read at (k, j) is the table's entry (j, k). -/
theorem row_apply (C : SN4.Idx → α) (h : SN4.Transposes [1, 0] S4N) (k : Fin 4) (j : Fin 8192) :
    transpose S4N [1, 0] C h (ix2 k j) = C (ix2 j k) :=
  transpose_ix2_apply C h k j

/-- Reading the transposed table's rows is reading the table's columns: the two mixtures agree. -/
theorem rowMix_transpose (C : SN4.Idx → EReal) (h : SN4.Transposes [1, 0] S4N) (A B : SBN.Idx → EReal) :
    rowMix (transpose S4N [1, 0] C h) A B = mix C A B := by
  funext i
  obtain ⟨r, j, rfl⟩ : ∃ (r : Fin 4096) (j : Fin 8192), i = ix2 r j := ⟨i 0, i 1, eq_ix2 i⟩
  rw [rowMix_apply, mix_apply, row_apply, row_apply, row_apply, row_apply]

/-! ## An all-true mask -/

/-- A left fold of `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduce by `and` from `true` of a mask that is everywhere 1 is everywhere 1. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## Signed 32-bit column numbers -/

/-- A column number in the range Python accepts for an axis of 8192 entries, −8192 ≤ w < 8192, with
    the negative ones moved up by 8192, lands in 0 … 8191. -/
theorem wrap_inRange (w : BitVec 32) (hlo : -8192 ≤ w.toInt) (hhi : w.toInt < 8192) :
    0 ≤ (Scalar.select (IntOp.cmpi .slt w 0#32) (IntOp.addi w 8192#32) w).toInt
      ∧ (Scalar.select (IntOp.cmpi .slt w 0#32) (IntOp.addi w 8192#32) w).toInt ≤ 8191 := by
  have h0 : (0#32 : BitVec 32).toInt = 0 := by decide
  by_cases hneg : w.toInt < 0
  · have hc : IntOp.cmpi .slt w 0#32 = 1#1 := by
      simp only [IntOp.cmpi, BitVec.slt, h0, hneg, decide_true]; rfl
    rw [hc, select_one]
    have ha : (IntOp.addi w 8192#32).toInt = w.toInt + 8192 := by
      unfold IntOp.addi
      rw [BitVec.toInt_add, show (8192#32 : BitVec 32).toInt = 8192 from by decide, Int.bmod_def]
      omega
    rw [ha]; omega
  · have hc : IntOp.cmpi .slt w 0#32 = 0#1 := by
      simp only [IntOp.cmpi, BitVec.slt, h0, hneg, decide_false]; rfl
    rw [hc, select_zero]; omega

end Cert.GateMix

end
-- ==== Proof.Words.lean ====
/-
  Signed 32-bit column numbers: what the comparisons of the precondition say of a word, and what the
  bounds test of a take says of a word already known to be in range.
-/
import Idealize.ShloMosaic.PureOps.Ideal
import Idealize.ShloMosaic.Lib.Affine

namespace Cert.GateMix

open Idealize.ShloMosaic

theorem ofBool_one (b : Bool) : BitVec.ofBool b = 1#1 ↔ b = true := by cases b <;> decide

/-- "−8192 ≤ w and w < 8192", as the two signed comparisons joined by `and`, read as integers. -/
theorem range_of_word (w : BitVec 32)
    (h : IntOp.andi (IntOp.cmpi .sge w 4294959104#32) (IntOp.cmpi .slt w 8192#32) = 1#1) :
    -8192 ≤ w.toInt ∧ w.toInt < 8192 := by
  obtain ⟨h1, h2⟩ := IntOp.andi_eq_one.1 h
  have hc : (4294959104#32 : BitVec 32).toInt = -8192 := by decide
  have hd : (8192#32 : BitVec 32).toInt = 8192 := by decide
  simp only [IntOp.cmpi, ofBool_one, BitVec.sle, BitVec.slt, decide_eq_true_eq, hc, hd] at h1 h2
  exact ⟨h1, h2⟩

/-- A start index in 0 … 8191 passes the bounds test "0 ≤ s and s ≤ 8191". -/
theorem inBounds_word (s : BitVec 32) (h0 : 0 ≤ s.toInt) (h1 : s.toInt ≤ 8191) :
    IntOp.andi (IntOp.cmpi .sge s 0#32) (IntOp.cmpi .sle s 8191#32) = 1#1 := by
  have hc : (0#32 : BitVec 32).toInt = 0 := by decide
  have hd : (8191#32 : BitVec 32).toInt = 8191 := by decide
  refine IntOp.andi_eq_one.2 ⟨?_, ?_⟩
  · simp only [IntOp.cmpi, ofBool_one, BitVec.sle, decide_eq_true_eq, hc]; exact h0
  · simp only [IntOp.cmpi, ofBool_one, BitVec.sle, decide_eq_true_eq, hd]; exact h1

end Cert.GateMix
-- ==== Proof.PreDecode.lean ====
/-
  The precondition, read: beside the finiteness of the two float arguments it says that every entry
  of each list of column numbers lies in −8192 … 8191, the range in which a column number names a
  column of an axis of 8192 entries (a negative one counted from the end).
-/
import proofs.«422701_j68358699483224_2_alg».proof.Pre_finite_inputs
import proofs.«422701_j68358699483224_2_alg».proof.Proof.Gen.Pre_finite_inputs
import proofs.«422701_j68358699483224_2_alg».proof.Proof.Words
import Idealize.ShloMosaic.Lib.ReduceAll

namespace Cert.Pre_finite_inputs.Decode

open Cert.Pre_finite_inputs Idealize.ShloMosaic Cert.GateMix

variable {F : FTy → Type} [FloatOps F] [Facts]

instance : Subsingleton S_.Idx := ⟨fun a b => funext fun d => d.elim0⟩

/-- The precondition's value is all ones only if both lists of column numbers are in range, entry by entry. -/
theorem ranges (x : FVec F S4096x8192 .f32) (w : FVec F S8192x16 .f32) (i0 i1 : IVec S8192 32)
    (h : fn (F := F) x w i0 i1 = fun _ => 1#1) :
    (∀ j, -8192 ≤ (i0 j).toInt ∧ (i0 j).toInt < 8192) ∧ (∀ j, -8192 ≤ (i1 j).toInt ∧ (i1 j).toInt < 8192) := by
  have e := congrFun h (fun a => a.elim0)
  dsimp only [fn, fn_part1] at e
  obtain ⟨e1, e21⟩ := IntOp.andi_eq_one.1 e
  obtain ⟨-, e14⟩ := IntOp.andi_eq_one.1 e1
  refine ⟨fun j => ?_, fun j => ?_⟩
  · have := Host.reduce_andi_all _ _ _ _ _ e14 j
    exact range_of_word (i0 j) this
  · have := Host.reduce_andi_all _ _ _ _ _ e21 j
    exact range_of_word (i1 j) this

end Cert.Pre_finite_inputs.Decode
-- ==== Proof.KernelHost.lean ====
/-
  What the kernel's region finds in its three operand arrays.

  Before the region @main computes, on the host: the coefficient table `coef w` (the softmax of each
  output column's sixteen gate logits times the gate table, [N, 4]) and its transpose [4, N]; and,
  twice, `take x i`: the columns of x named by the column numbers i, where a column whose number —
  after a negative one has had 8192 added — falls outside 0 … 8191 is filled with the NaN pattern
  instead (a mask computed per column, spread over the B rows, selects between the gathered column
  and the fill).
-/
import proofs.«422701_j68358699483224_2_alg».proof.Proof.Gen.KernelIdeal.Frame
import Idealize.ShloMosaic.Lib.StableHlo.Run

noncomputable section

namespace Cert.KernelIdeal.Gates

open Cert.KernelIdeal Cert.KernelIdeal.Gen Idealize.ShloMosaic Idealize.ShloMosaic.TcCoe Idealize.SL.Sem Idealize.ShloMosaic.StableHlo

variable {F : FTy → Type} [FloatOps F]

/-! ## The host values -/

/-- The largest logit of each output column (a maximum started from −∞). -/
def rowMax (w : FVec F S8192x16 .f32) : FVec F S8192 .f32 :=
  maximumf (broadcastInDim S8192 ![] bcast_S_S8192 (constant S_ .f32 0xFF800000#32))
    (Host.reduce FloatOps.maximumf w (constant S_ .f32 0xFF800000#32) reducesTo_S8192x16_S8192_d1 h_S_)

/-- The shifted exponentials exp (w − max) of each column's logits. -/
def expShift (w : FVec F S8192x16 .f32) : FVec F S8192x16 .f32 :=
  Host.exp (subf w (broadcastInDim S8192x16 ![0, 1] bcast_S8192x1_S8192x16_0_1
    (broadcastInDim S8192x1 ![0] bcast_S8192_S8192x1_0 (rowMax w))))

/-- The gate probabilities: each column's shifted exponentials over their sum. -/
def gateProb (w : FVec F S8192x16 .f32) : FVec F S8192x16 .f32 :=
  Host.divf (expShift w) (broadcastInDim S8192x16 ![0, 1] bcast_S8192x1_S8192x16_0_1
    (broadcastInDim S8192x1 ![0] bcast_S8192_S8192x1_0
      (Host.reduceAdd (expShift w) (constant S_ .f32 0x00000000#32) reducesTo_S8192x16_S8192_d1 h_S_)))

/-- The coefficient table: the gate probabilities times the [16, 4] table of each gate's
    coefficients of (1, a, b, a·b). -/
def coef (w : FVec F S8192x16 .f32) : FVec F S8192x4 .f32 :=
  Host.dotGeneral dot_S8192x16_S16x4_S8192x4_1_0_0_1_n_n none (gateProb w)
    (fun i => FloatOps.ofBits .f32 (lit0 (S16x4.rowMajor i)))

/-- The coefficient table with its four columns laid as rows. -/
def coefT (w : FVec F S8192x16 .f32) : FVec F S4x8192 .f32 :=
  transpose S4x8192 [1, 0] (coef w) transposes_S8192x4_S4x8192_1_0

/-- The column numbers as start indices: a negative one has 8192 added, and the list becomes an [N, 1] column. -/
def startIdx (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)

/-- Per column: is its start index in 0 … 8191? -/
def inBounds (i : IVec S8192 32) : IVec S8192 1 :=
  Host.reduce IntOp.andi
    (andi (cmpi .sge (startIdx i) (broadcastInDim S8192x1 ![] bcast_S_S8192x1 (constantI S_ 32 0#32)))
      (cmpi .sle (startIdx i) (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The columns of x that the start indices name, side by side. -/
def cols (x : FVec F S4096x8192 .f32) (i : IVec S8192 32) : FVec F S4096x8192 .f32 :=
  Host.gather gather_S4096x8192_S8192x1_S4096x8192_0_1_n_n_1_1_40961 x (startIdx i)

/-- The named columns of x, a column out of bounds filled with the NaN pattern. -/
def take (x : FVec F S4096x8192 .f32) (i : IVec S8192 32) : FVec F S4096x8192 .f32 :=
  select (broadcastInDim S4096x8192 ![1] bcast_S8192_S4096x8192_1 (inBounds i)) (cols x i)
    (broadcastInDim S4096x8192 ![] bcast_S_S4096x8192 (constant S_ .f32 0x7FC00000#32))

/-! ## The region's operand arrays -/

variable (m : (ℓ : Loc nD τ sig) → Buf (Elt F) ℓ)

/-- The region's first operand is the transposed coefficient table of the logits argument. -/
theorem V_coefT (c : Dev nD) :
    (V m c main_v12 : S4x8192.Idx → Elt F .f32) = coefT (m ((c : Thread nD τ).loc main_arg1)) := by
  dsimp only [V]
  simp only [hostOps0, hostOps0_1, hostOps0_2, List.flatten_cons, List.flatten_nil, List.append_nil, List.cons_append,
    List.nil_append]
  after_results_simp
  rfl

/-- The region's second operand is the take of x at the first list of column numbers. -/
theorem V_take0 (c : Dev nD) :
    (V m c main_v13 : S4096x8192.Idx → Elt F .f32)
      = take (m ((c : Thread nD τ).loc main_arg0)) (m ((c : Thread nD τ).loc main_arg2)) := by
  dsimp only [V]
  simp only [hostOps0, hostOps0_1, hostOps0_2, List.flatten_cons, List.flatten_nil, List.append_nil, List.cons_append,
    List.nil_append]
  after_results_simp
  rfl

/-- The region's third operand is the take of x at the second list of column numbers. -/
theorem V_take1 (c : Dev nD) :
    (V m c main_v14 : S4096x8192.Idx → Elt F .f32)
      = take (m ((c : Thread nD τ).loc main_arg0)) (m ((c : Thread nD τ).loc main_arg3)) := by
  dsimp only [V]
  simp only [hostOps0, hostOps0_1, hostOps0_2, List.flatten_cons, List.flatten_nil, List.append_nil, List.cons_append,
    List.nil_append]
  after_results_simp
  rfl

end Cert.KernelIdeal.Gates

end
-- ==== Proof.KernelValue.lean ====
/-
  The kernel's result array as one function of its three operand arrays.

  The grid has 8 × 4 points; point (p, q) takes rows 512p … 512p+511 and columns 2048q … 2048q+2047
  of the two [B, N] operands, the four rows of columns 2048q … of the transposed coefficient table,
  and writes the same block of the result.  Inside the block the body computes, at (y₀, y₁),
  c₀[y₁] + c₁[y₁]·a[y₀,y₁] + c₂[y₁]·b[y₀,y₁] + c₃[y₁]·(a[y₀,y₁]·b[y₀,y₁])  with c_k row k of the table's
  block.  So every point writes its block of ONE whole-array function, `rowMix`, and the 32 blocks
  tile the array.
-/
import proofs.«422701_j68358699483224_2_alg».proof.Proof.Gen.KernelIdeal.Value
import proofs.«422701_j68358699483224_2_alg».proof.Proof.Mix

noncomputable section

namespace Cert.KernelIdeal.Gates

open Cert.KernelIdeal Cert.KernelIdeal.Gen Idealize.ShloMosaic Idealize.ShloMosaic.TcCoe Idealize.SL.Sem
open Idealize.ShloMosaic.Pipeline (Dat)
open Idealize.ShloMosaic.ValueIdx Cert.GateMix

variable (m : (ℓ : Loc nD τ sig) → Buf (Elt Ideal) ℓ)

/-- What the body leaves in the result's block, entry by entry, from the three input blocks. -/
theorem block_apply (x0 : S4x2048.Idx → EReal) (x1 x2 : S512x2048.Idx → EReal) (y : S512x2048.Idx) :
    out0_3 (F := Ideal) x0 x1 x2 y
      = x0 (ix2 (0 : Fin 4) (y 1 : Fin 2048)) + x0 (ix2 (1 : Fin 4) (y 1 : Fin 2048)) * x1 y
        + x0 (ix2 (2 : Fin 4) (y 1 : Fin 2048)) * x2 y + x0 (ix2 (3 : Fin 4) (y 1 : Fin 2048)) * (x1 y * x2 y) := by
  unfold out0_3
  rw [Value.canon3_eq]
  have e0 : r0_0.idx (Value.ix3_0 y) = ix2 (0 : Fin 4) (y 1 : Fin 2048) := by
    funext a; apply Fin.ext
    match a with
    | ⟨0, _⟩ => show 0 + 1 * 0 = 0; omega
    | ⟨1, _⟩ => show 0 + 1 * (y 1).val = (y 1).val; omega
  have e1 : r0_1.idx (Value.ix3_1 y) = ix2 (1 : Fin 4) (y 1 : Fin 2048) := by
    funext a; apply Fin.ext
    match a with
    | ⟨0, _⟩ => show 1 + 1 * 0 = 1; omega
    | ⟨1, _⟩ => show 0 + 1 * (y 1).val = (y 1).val; omega
  have e2 : r0_2.idx (Value.ix3_3 y) = ix2 (2 : Fin 4) (y 1 : Fin 2048) := by
    funext a; apply Fin.ext
    match a with
    | ⟨0, _⟩ => show 2 + 1 * 0 = 2; omega
    | ⟨1, _⟩ => show 0 + 1 * (y 1).val = (y 1).val; omega
  have e3 : r0_3.idx (Value.ix3_5 y) = ix2 (3 : Fin 4) (y 1 : Fin 2048) := by
    funext a; apply Fin.ext
    match a with
    | ⟨0, _⟩ => show 3 + 1 * 0 = 3; omega
    | ⟨1, _⟩ => show 0 + 1 * (y 1).val = (y 1).val; omega
  have e4 : r0_4.idx (Value.ix3_2 y) = y := by
    funext a; apply Fin.ext
    match a with
    | ⟨0, _⟩ => show 0 + 1 * (y 0).val = (y 0).val; omega
    | ⟨1, _⟩ => show 0 + 1 * (y 1).val = (y 1).val; omega
  show x0 (r0_0.idx (Value.ix3_0 y)) + x0 (r0_1.idx (Value.ix3_1 y)) * x1 (r0_4.idx (Value.ix3_2 y))
      + x0 (r0_2.idx (Value.ix3_3 y)) * x2 (r0_4.idx (Value.ix3_2 y))
      + x0 (r0_3.idx (Value.ix3_5 y)) * (x1 (r0_4.idx (Value.ix3_2 y)) * x2 (r0_4.idx (Value.ix3_2 y))) = _
  rw [e0, e1, e2, e3, e4]
  rfl

/-- The region's three operand arrays, at their literal types. -/
abbrev tblArr (c : Dev nD) : S4x8192.Idx → EReal := V m c main_v12
abbrev aArr (c : Dev nD) : S4096x8192.Idx → EReal := V m c main_v13
abbrev bArr (c : Dev nD) : S4096x8192.Idx → EReal := V m c main_v14

/-- The printed index maps over the 32 grid points: the table's window sits at block row 0 and moves
    along the columns with the result's; the two [B, N] operands' windows are where the result's is;
    and the result's block indices stay inside 8 × 4. -/
theorem idx_facts : ∀ t : Fin cfg0.N, win0_0.index t (0 : Fin 2) = 0
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block of the 8 × 4 tiling is some point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- Point t's block of the result, computed from point t's blocks of ANY three operand arrays, is
    block t of `rowMix` of those arrays. -/
theorem block_of_arrays (T : S4x8192.Idx → EReal) (A B : S4096x8192.Idx → EReal) (t : Fin cfg0.N) :
    (cfg0.win 3).cut (grid0.coords t)
        (out0_3 (F := Ideal) (((cfg0.win 0).blk t).view.read (Elt Ideal) T) (((cfg0.win 1).blk t).view.read (Elt Ideal) A)
          (((cfg0.win 2).blk t).view.read (Elt Ideal) B))
      = ((cfg0.win 3).blk t).view.read (Elt Ideal) (rowMix T A B) := by
  obtain ⟨e0, e1, e2, e3, e4, e5, e6, e7⟩ := idx_facts t
  funext j
  show out0_3 (F := Ideal) (((cfg0.win 0).blk t).view.read (Elt Ideal) T) (((cfg0.win 1).blk t).view.read (Elt Ideal) A)
      (((cfg0.win 2).blk t).view.read (Elt Ideal) B) j
    = rowMix T A B (((cfg0.win 3).blk t).view.emb j)
  refine (block_apply (((cfg0.win 0).blk t).view.read (Elt Ideal) T) (((cfg0.win 1).blk t).view.read (Elt Ideal) A)
    (((cfg0.win 2).blk t).view.read (Elt Ideal) B) j).trans ?_
  have hj0 : (j 0).val < 512 := (j 0).isLt
  have hj1 : (j 1).val < 2048 := (j 1).isLt
  have hrow : ∀ k : Fin 4, ((cfg0.win 0).blk t).view.emb (ix2 k (j 1 : Fin 2048))
      = ix2 k ((((cfg0.win 3).blk t).view.emb j) 1 : Fin 8192) := by
    intro k
    funext a; apply Fin.ext
    match a with
    | ⟨0, _⟩ => show win0_0.index t (0 : Fin 2) * 4 + 1 * k.val = k.val; omega
    | ⟨1, _⟩ => show win0_0.index t (1 : Fin 2) * 2048 + 1 * (j 1).val = win0_3.index t (1 : Fin 2) * 2048 + 1 * (j 1).val; omega
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; omega
    | ⟨1, _⟩ => show win0_1.index t (1 : Fin 2) * 2048 + 1 * (j 1).val = win0_3.index t (1 : Fin 2) * 2048 + 1 * (j 1).val; omega
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; omega
    | ⟨1, _⟩ => show win0_2.index t (1 : Fin 2) * 2048 + 1 * (j 1).val = win0_3.index t (1 : Fin 2) * 2048 + 1 * (j 1).val; omega
  show T (((cfg0.win 0).blk t).view.emb (ix2 (0 : Fin 4) (j 1 : Fin 2048)))
      + T (((cfg0.win 0).blk t).view.emb (ix2 (1 : Fin 4) (j 1 : Fin 2048))) * A (((cfg0.win 1).blk t).view.emb j)
      + T (((cfg0.win 0).blk t).view.emb (ix2 (2 : Fin 4) (j 1 : Fin 2048))) * B (((cfg0.win 2).blk t).view.emb j)
      + T (((cfg0.win 0).blk t).view.emb (ix2 (3 : Fin 4) (j 1 : Fin 2048)))
        * (A (((cfg0.win 1).blk t).view.emb j) * B (((cfg0.win 2).blk t).view.emb j)) = _
  rw [hrow 0, hrow 1, hrow 2, hrow 3, h1, h2]
  rfl

/-- What point t writes back is block t of `rowMix` of the operand arrays as the region finds them. -/
theorem flushed_eq (c : Dev nD) (t : Fin cfg0.N) :
    (dats m 0 c).flushed 3 t
      = ((cfg0.win 3).blk t).view.read (Elt Ideal) (rowMix (tblArr m c) (aArr m c) (bArr m c)) := by
  rw [Value.flushed3]
  exact block_of_arrays (tblArr m c) (aArr m c) (bArr m c) t

/-- An index of the array is in point t's block iff each coordinate is in the block's range on its axis. -/
theorem mem_blk (t : Fin cfg0.N) (i : S4096x8192.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v15).slice (win0_3.rect t)).set ↔ _
  rw [View.set_slice_whole, Rect.mem_set_unit]
  exact Iff.rfl

/-- The 32 blocks tile the array: index (r, j) lies in the block of the point with block indices (r / 512, j / 2048). -/
theorem cover (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The result array after the run is `rowMix` of the three operand arrays. -/
theorem final (c : Dev nD) :
    (dats m 0 c).arrAt 3 cfg0.N = rowMix (tblArr m c) (aArr m c) (bArr m c) :=
  (dats m 0 c).arrAt_eq_of_cover 3 _ (fun t _ => flushed_eq m c t) cover

end Cert.KernelIdeal.Gates

end
-- ==== Proof.TakeInRange.lean ====
/-
  With every column number in −8192 … 8191 the take's bounds test passes on every column, so the
  take is the plain gather of the named columns: no column is replaced by the fill.
-/
import proofs.«422701_j68358699483224_2_alg».proof.Proof.KernelHost
import proofs.«422701_j68358699483224_2_alg».proof.Proof.Mix
import proofs.«422701_j68358699483224_2_alg».proof.Proof.Words

noncomputable section

namespace Cert.KernelIdeal.Gates

open Cert.KernelIdeal Cert.KernelIdeal.Gen Idealize.ShloMosaic Idealize.ShloMosaic.ValueIdx Cert.GateMix

variable {F : FTy → Type} [FloatOps F]

/-- Every start index made from an in-range column number lies in 0 … 8191. -/
theorem startIdx_inRange (i : IVec S8192 32) (hr : ∀ j, -8192 ≤ (i j).toInt ∧ (i j).toInt < 8192) (q : S8192x1.Idx) :
    0 ≤ (startIdx i q).toInt ∧ (startIdx i q).toInt ≤ 8191 := by
  unfold startIdx broadcastInDim
  exact wrap_inRange _ (hr _).1 (hr _).2

/-- So the per-column bounds test is true on every column. -/
theorem inBounds_one (i : IVec S8192 32) (hr : ∀ j, -8192 ≤ (i j).toInt ∧ (i j).toInt < 8192) (k : S8192.Idx) :
    inBounds i k = 1#1 := by
  unfold inBounds
  refine reduce_andi_ones _ _ _ _ (fun q => ?_) (fun _ => rfl) k
  exact inBounds_word (startIdx i q) (startIdx_inRange i hr q).1 (startIdx_inRange i hr q).2

/-- And the take is the gather of the named columns. -/
theorem take_eq_cols (x : FVec F S4096x8192 .f32) (i : IVec S8192 32)
    (hr : ∀ j, -8192 ≤ (i j).toInt ∧ (i j).toInt < 8192) : take x i = cols x i := by
  funext p
  unfold take
  rw [select_apply]
  have hb : broadcastInDim S4096x8192 ![1] bcast_S8192_S4096x8192_1 (inBounds i) p = 1#1 := by
    unfold broadcastInDim
    exact inBounds_one i hr _
  rw [hb, select_one]

end Cert.KernelIdeal.Gates

end
-- ==== Proof.RefRun.lean ====
/-
  The reference program's run, read back as one function of its four arguments.

  @main of the reference is a straight line of 57 host operations.  Run from any memory, every weakly
  fair execution ends with the result buffer holding `mixture x w i₀ i₁`: the softmax of each output
  column's sixteen gate logits times the gate table gives a coefficient table `coef w` of shape
  [N, 4]; the columns of x named by i₀ and by i₁ (a negative column number counted from the end) are
  gathered into two [B, N] arrays; and the result is  c₀ + c₁·a + c₂·b + c₃·(a·b)  with c_k column k
  of the coefficient table spread over the B rows.  The arguments end unchanged.
-/
import proofs.«422701_j68358699483224_2_alg».proof.Proof.Gen.ReferenceIdeal
import Idealize.ShloMosaic.Lib.StableHlo.Run

noncomputable section

namespace Cert.ReferenceIdeal.Gates

open Cert.ReferenceIdeal Cert.ReferenceIdeal.Gen Idealize.ShloMosaic Idealize.ShloMosaic.TcCoe Idealize.SL.Sem Idealize.ShloMosaic.StableHlo

variable {F : FTy → Type} [FloatOps F]

/-! ## The pieces of the result -/

/-- The largest logit of each output column (a maximum started from −∞). -/
def rowMax (w : FVec F S8192x16 .f32) : FVec F S8192 .f32 :=
  maximumf (broadcastInDim S8192 ![] bcast_S_S8192 (constant S_ .f32 0xFF800000#32))
    (Host.reduce FloatOps.maximumf w (constant S_ .f32 0xFF800000#32) reducesTo_S8192x16_S8192_d1 h_S_)

/-- The shifted exponentials exp (w − max) of each column's logits. -/
def expShift (w : FVec F S8192x16 .f32) : FVec F S8192x16 .f32 :=
  Host.exp (subf w (broadcastInDim S8192x16 ![0, 1] bcast_S8192x1_S8192x16_0_1
    (broadcastInDim S8192x1 ![0] bcast_S8192_S8192x1_0 (rowMax w))))

/-- The gate probabilities: each column's shifted exponentials over their sum. -/
def gateProb (w : FVec F S8192x16 .f32) : FVec F S8192x16 .f32 :=
  Host.divf (expShift w) (broadcastInDim S8192x16 ![0, 1] bcast_S8192x1_S8192x16_0_1
    (broadcastInDim S8192x1 ![0] bcast_S8192_S8192x1_0
      (Host.reduceAdd (expShift w) (constant S_ .f32 0x00000000#32) reducesTo_S8192x16_S8192_d1 h_S_)))

/-- The coefficient table: the gate probabilities times the [16, 4] table of each gate's
    coefficients of (1, a, b, a·b). -/
def coef (w : FVec F S8192x16 .f32) : FVec F S8192x4 .f32 :=
  Host.dotGeneral dot_S8192x16_S16x4_S8192x4_1_0_0_1_n_n none (gateProb w)
    (fun i => FloatOps.ofBits .f32 (lit0 (S16x4.rowMajor i)))

/-- The column numbers as start indices: a negative one has 8192 added, and the list becomes an [N, 1] column. -/
def startIdx (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)

/-- The columns of x that the start indices name, side by side. -/
def cols (x : FVec F S4096x8192 .f32) (i : IVec S8192 32) : FVec F S4096x8192 .f32 :=
  Host.gather gather_S4096x8192_S8192x1_S4096x8192_0_1_n_n_1_1_40961 x (startIdx i)

/-- Column `o` of the coefficient table spread over the B rows. -/
def spread (o : Nat) (h : S8192x4.Slices ![0, o] S8192x1) (C : FVec F S8192x4 .f32) : FVec F S4096x8192 .f32 :=
  broadcastInDim S4096x8192 ![0, 1] bcast_S1x8192_S4096x8192_0_1
    (broadcastInDim S1x8192 ![1] bcast_S8192_S1x8192_1
      (shapeCast S8192 (extractStridedSlice S8192x1 ![0, o] C h) shapeCasts_S8192x1_S8192))

/-- c₀ + c₁·a + c₂·b + c₃·(a·b), in the order the program adds. -/
def combine (C : FVec F S8192x4 .f32) (A B : FVec F S4096x8192 .f32) : FVec F S4096x8192 .f32 :=
  addf (addf (addf (spread 0 slices_S8192x4_S8192x1_0_0 C) (mulf (spread 1 slices_S8192x4_S8192x1_0_1 C) A))
      (mulf (spread 2 slices_S8192x4_S8192x1_0_2 C) B))
    (mulf (spread 3 slices_S8192x4_S8192x1_0_3 C) (mulf A B))

/-- The reference's result as a function of its arguments. -/
def mixture (x : FVec F S4096x8192 .f32) (w : FVec F S8192x16 .f32) (i0 i1 : IVec S8192 32) : FVec F S4096x8192 .f32 :=
  combine (coef w) (cols x i0) (cols x i1)

/-! ## The run -/

/-- @main's 57 operations, in order. -/
abbrev ops : List (HloOp τ sig (Elt F)) :=
  [ nullary main_cst (fun i => FloatOps.ofBits .f32 (lit0 (S16x4.rowMajor i))),
    nullary main_cst_0 (constant S_ .f32 0xFF800000#32),
    binary main_arg1 main_cst_0 main_v0 ((fun x v => Host.reduce FloatOps.maximumf x v reducesTo_S8192x16_S8192_d1 h_S_) : (⟨S8192x16, .f32⟩ : BufTy).Contents (Elt F) → (⟨S_, .f32⟩ : BufTy).Contents (Elt F) → (⟨S8192, .f32⟩ : BufTy).Contents (Elt F)),
    nullary main_cst_1 (constant S_ .f32 0xFF800000#32),
    unary main_cst_1 main_v1 (broadcastInDim S8192 ![] bcast_S_S8192 : (⟨S_, .f32⟩ : BufTy).Contents (Elt F) → (⟨S8192, .f32⟩ : BufTy).Contents (Elt F)),
    binary main_v1 main_v0 main_v2 (maximumf : (⟨S8192, .f32⟩ : BufTy).Contents (Elt F) → (⟨S8192, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    unary main_v3 main_v4 (broadcastInDim S8192x16 ![0, 1] bcast_S8192x1_S8192x16_0_1 : (⟨S8192x1, .f32⟩ : BufTy).Contents (Elt F) → (⟨S8192x16, .f32⟩ : BufTy).Contents (Elt F)),
    binary main_arg1 main_v4 main_v5 (subf : (⟨S8192x16, .f32⟩ : BufTy).Contents (Elt F) → (⟨S8192x16, .f32⟩ : BufTy).Contents (Elt F) → (⟨S8192x16, .f32⟩ : BufTy).Contents (Elt F)),
    unary main_v5 main_v6 (Host.exp : (⟨S8192x16, .f32⟩ : BufTy).Contents (Elt F) → (⟨S8192x16, .f32⟩ : BufTy).Contents (Elt F)),
    nullary main_cst_2 (constant S_ .f32 0x00000000#32),
    binary main_v6 main_cst_2 main_v7 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    unary main_v7 main_v8 (broadcastInDim S8192x1 ![0] bcast_S8192_S8192x1_0 : (⟨S8192, .f32⟩ : BufTy).Contents (Elt F) → (⟨S8192x1, .f32⟩ : BufTy).Contents (Elt F)),
    unary main_v8 main_v9 (broadcastInDim S8192x16 ![0, 1] bcast_S8192x1_S8192x16_0_1 : (⟨S8192x1, .f32⟩ : BufTy).Contents (Elt F) → (⟨S8192x16, .f32⟩ : BufTy).Contents (Elt F)),
    binary main_v6 main_v9 main_v10 (Host.divf : (⟨S8192x16, .f32⟩ : BufTy).Contents (Elt F) → (⟨S8192x16, .f32⟩ : BufTy).Contents (Elt F) → (⟨S8192x16, .f32⟩ : BufTy).Contents (Elt F)),
    binary main_v10 main_cst main_v11 ((fun l r => Host.dotGeneral dot_S8192x16_S16x4_S8192x4_1_0_0_1_n_n none l r) : (⟨S8192x16, .f32⟩ : BufTy).Contents (Elt F) → (⟨S16x4, .f32⟩ : BufTy).Contents (Elt F) → (⟨S8192x4, .f32⟩ : BufTy).Contents (Elt F)),
    nullary main_c (constantI S_ 32 0#32),
    unary main_c main_v12 (broadcastInDim S8192 ![] bcast_S_S8192 : (⟨S_, .i32⟩ : BufTy).Contents (Elt F) → (⟨S8192, .i32⟩ : BufTy).Contents (Elt F)),
    binary main_arg2 main_v12 main_v13 (cmpi .slt : (⟨S8192, .i32⟩ : BufTy).Contents (Elt F) → (⟨S8192, .i32⟩ : BufTy).Contents (Elt F) → (⟨S8192, .i1⟩ : BufTy).Contents (Elt F)),
    nullary main_c_3 (constantI S_ 32 8192#32),
    unary main_c_3 main_v14 (broadcastInDim S8192 ![] bcast_S_S8192 : (⟨S_, .i32⟩ : BufTy).Contents (Elt F) → (⟨S8192, .i32⟩ : BufTy).Contents (Elt F)),
    binary main_arg2 main_v14 main_v15 (addi : (⟨S8192, .i32⟩ : BufTy).Contents (Elt F) → (⟨S8192, .i32⟩ : BufTy).Contents (Elt F) → (⟨S8192, .i32⟩ : BufTy).Contents (Elt F)),
    ternary main_v13 main_v15 main_arg2 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v16 main_v17 (broadcastInDim S8192x1 ![0] bcast_S8192_S8192x1_0 : (⟨S8192, .i32⟩ : BufTy).Contents (Elt F) → (⟨S8192x1, .i32⟩ : BufTy).Contents (Elt F)),
    binary main_arg0 main_v17 main_v18 ((fun x i => Host.gather gather_S4096x8192_S8192x1_S4096x8192_0_1_n_n_1_1_40961 x i) : (⟨S4096x8192, .f32⟩ : BufTy).Contents (Elt F) → (⟨S8192x1, .i32⟩ : BufTy).Contents (Elt F) → (⟨S4096x8192, .f32⟩ : BufTy).Contents (Elt F)),
    nullary main_c_4 (constantI S_ 32 0#32),
    unary main_c_4 main_v19 (broadcastInDim S8192 ![] bcast_S_S8192 : (⟨S_, .i32⟩ : BufTy).Contents (Elt F) → (⟨S8192, .i32⟩ : BufTy).Contents (Elt F)),
    binary main_arg3 main_v19 main_v20 (cmpi .slt : (⟨S8192, .i32⟩ : BufTy).Contents (Elt F) → (⟨S8192, .i32⟩ : BufTy).Contents (Elt F) → (⟨S8192, .i1⟩ : BufTy).Contents (Elt F)),
    nullary main_c_5 (constantI S_ 32 8192#32),
    unary main_c_5 main_v21 (broadcastInDim S8192 ![] bcast_S_S8192 : (⟨S_, .i32⟩ : BufTy).Contents (Elt F) → (⟨S8192, .i32⟩ : BufTy).Contents (Elt F)),
    binary main_arg3 main_v21 main_v22 (addi : (⟨S8192, .i32⟩ : BufTy).Contents (Elt F) → (⟨S8192, .i32⟩ : BufTy).Contents (Elt F) → (⟨S8192, .i32⟩ : BufTy).Contents (Elt F)),
    ternary main_v20 main_v22 main_arg3 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v23 main_v24 (broadcastInDim S8192x1 ![0] bcast_S8192_S8192x1_0 : (⟨S8192, .i32⟩ : BufTy).Contents (Elt F) → (⟨S8192x1, .i32⟩ : BufTy).Contents (Elt F)),
    binary main_arg0 main_v24 main_v25 ((fun x i => Host.gather gather_S4096x8192_S8192x1_S4096x8192_0_1_n_n_1_1_40961 x i) : (⟨S4096x8192, .f32⟩ : BufTy).Contents (Elt F) → (⟨S8192x1, .i32⟩ : BufTy).Contents (Elt F) → (⟨S4096x8192, .f32⟩ : BufTy).Contents (Elt F)),
    unary main_v11 main_v26 ((extractStridedSlice S8192x1 ![0, 0] · slices_S8192x4_S8192x1_0_0) : (⟨S8192x4, .f32⟩ : BufTy).Contents (Elt F) → (⟨S8192x1, .f32⟩ : BufTy).Contents (Elt F)),
    reshape main_v26 main_v27 rfl shapeCasts_S8192x1_S8192,
    unary main_v11 main_v28 ((extractStridedSlice S8192x1 ![0, 1] · slices_S8192x4_S8192x1_0_1) : (⟨S8192x4, .f32⟩ : BufTy).Contents (Elt F) → (⟨S8192x1, .f32⟩ : BufTy).Contents (Elt F)),
    reshape main_v28 main_v29 rfl shapeCasts_S8192x1_S8192,
    unary main_v29 main_v30 (broadcastInDim S1x8192 ![1] bcast_S8192_S1x8192_1 : (⟨S8192, .f32⟩ : BufTy).Contents (Elt F) → (⟨S1x8192, .f32⟩ : BufTy).Contents (Elt F)),
    unary main_v30 main_v31 (broadcastInDim S4096x8192 ![0, 1] bcast_S1x8192_S4096x8192_0_1 : (⟨S1x8192, .f32⟩ : BufTy).Contents (Elt F) → (⟨S4096x8192, .f32⟩ : BufTy).Contents (Elt F)),
    binary main_v31 main_v18 main_v32 (mulf : (⟨S4096x8192, .f32⟩ : BufTy).Contents (Elt F) → (⟨S4096x8192, .f32⟩ : BufTy).Contents (Elt F) → (⟨S4096x8192, .f32⟩ : BufTy).Contents (Elt F)),
    unary main_v27 main_v33 (broadcastInDim S1x8192 ![1] bcast_S8192_S1x8192_1 : (⟨S8192, .f32⟩ : BufTy).Contents (Elt F) → (⟨S1x8192, .f32⟩ : BufTy).Contents (Elt F)),
    unary main_v33 main_v34 (broadcastInDim S4096x8192 ![0, 1] bcast_S1x8192_S4096x8192_0_1 : (⟨S1x8192, .f32⟩ : BufTy).Contents (Elt F) → (⟨S4096x8192, .f32⟩ : BufTy).Contents (Elt F)),
    binary main_v34 main_v32 main_v35 (addf : (⟨S4096x8192, .f32⟩ : BufTy).Contents (Elt F) → (⟨S4096x8192, .f32⟩ : BufTy).Contents (Elt F) → (⟨S4096x8192, .f32⟩ : BufTy).Contents (Elt F)),
    unary main_v11 main_v36 ((extractStridedSlice S8192x1 ![0, 2] · slices_S8192x4_S8192x1_0_2) : (⟨S8192x4, .f32⟩ : BufTy).Contents (Elt F) → (⟨S8192x1, .f32⟩ : BufTy).Contents (Elt F)),
    reshape main_v36 main_v37 rfl shapeCasts_S8192x1_S8192,
    unary main_v37 main_v38 (broadcastInDim S1x8192 ![1] bcast_S8192_S1x8192_1 : (⟨S8192, .f32⟩ : BufTy).Contents (Elt F) → (⟨S1x8192, .f32⟩ : BufTy).Contents (Elt F)),
    unary main_v38 main_v39 (broadcastInDim S4096x8192 ![0, 1] bcast_S1x8192_S4096x8192_0_1 : (⟨S1x8192, .f32⟩ : BufTy).Contents (Elt F) → (⟨S4096x8192, .f32⟩ : BufTy).Contents (Elt F)),
    binary main_v39 main_v25 main_v40 (mulf : (⟨S4096x8192, .f32⟩ : BufTy).Contents (Elt F) → (⟨S4096x8192, .f32⟩ : BufTy).Contents (Elt F) → (⟨S4096x8192, .f32⟩ : BufTy).Contents (Elt F)),
    binary main_v35 main_v40 main_v41 (addf : (⟨S4096x8192, .f32⟩ : BufTy).Contents (Elt F) → (⟨S4096x8192, .f32⟩ : BufTy).Contents (Elt F) → (⟨S4096x8192, .f32⟩ : BufTy).Contents (Elt F)),
    unary main_v11 main_v42 ((extractStridedSlice S8192x1 ![0, 3] · slices_S8192x4_S8192x1_0_3) : (⟨S8192x4, .f32⟩ : BufTy).Contents (Elt F) → (⟨S8192x1, .f32⟩ : BufTy).Contents (Elt F)),
    reshape main_v42 main_v43 rfl shapeCasts_S8192x1_S8192,
    binary main_v18 main_v25 main_v44 (mulf : (⟨S4096x8192, .f32⟩ : BufTy).Contents (Elt F) → (⟨S4096x8192, .f32⟩ : BufTy).Contents (Elt F) → (⟨S4096x8192, .f32⟩ : BufTy).Contents (Elt F)),
    unary main_v43 main_v45 (broadcastInDim S1x8192 ![1] bcast_S8192_S1x8192_1 : (⟨S8192, .f32⟩ : BufTy).Contents (Elt F) → (⟨S1x8192, .f32⟩ : BufTy).Contents (Elt F)),
    unary main_v45 main_v46 (broadcastInDim S4096x8192 ![0, 1] bcast_S1x8192_S4096x8192_0_1 : (⟨S1x8192, .f32⟩ : BufTy).Contents (Elt F) → (⟨S4096x8192, .f32⟩ : BufTy).Contents (Elt F)),
    binary main_v46 main_v44 main_v47 (mulf : (⟨S4096x8192, .f32⟩ : BufTy).Contents (Elt F) → (⟨S4096x8192, .f32⟩ : BufTy).Contents (Elt F) → (⟨S4096x8192, .f32⟩ : BufTy).Contents (Elt F)),
    binary main_v41 main_v47 main_v48 (addf : (⟨S4096x8192, .f32⟩ : BufTy).Contents (Elt F) → (⟨S4096x8192, .f32⟩ : BufTy).Contents (Elt F) → (⟨S4096x8192, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

/-- On every device, from any memory with zero counters: every weakly fair execution of @main
    terminates with the result buffer at `mixture` of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = mixture (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v48).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.Gates

end
-- ==== Proof.RefValue.lean ====
/-
  The reference's result, index by index, is the mixture `mix` of its coefficient table and its two
  arrays of gathered columns: each spread column of the table read at (r, j) is the table's entry
  (j, k), and the sums and products are taken entry by entry.
-/
import proofs.«422701_j68358699483224_2_alg».proof.Proof.RefRun
import proofs.«422701_j68358699483224_2_alg».proof.Proof.Mix

noncomputable section

namespace Cert.ReferenceIdeal.Gates

open Cert.ReferenceIdeal Cert.ReferenceIdeal.Gen Idealize.ShloMosaic Idealize.ShloMosaic.ValueIdx Cert.GateMix

theorem combine_eq_mix (C : FVec Ideal S8192x4 .f32) (A B : FVec Ideal S4096x8192 .f32) :
    combine (F := Ideal) C A B = mix C A B := by
  funext i
  obtain ⟨r, j, rfl⟩ : ∃ (r : Fin 4096) (j : Fin 8192), i = ix2 r j := ⟨i 0, i 1, eq_ix2 i⟩
  rw [mix_apply]
  unfold combine spread
  rw [addf_apply, addf_apply, addf_apply, mulf_apply, mulf_apply, mulf_apply, mulf_apply,
    col_apply 0 (by decide), col_apply 1 (by decide), col_apply 2 (by decide), col_apply 3 (by decide)]
  rfl

end Cert.ReferenceIdeal.Gates

end
-- ==== Proof.lean ====
/-
  A soft mixture of sixteen binary logic gates over gathered columns: the Pallas kernel against its
  jnp reference, over the extended reals.

  Both programs compute, for output column j, the softmax p of sixteen gate logits and the
  coefficients c[j, ·] = p · GATE_COEF of (1, a, b, a·b); gather two columns of x per output column,
  a = x[:, i₀[j]] and b = x[:, i₁[j]] (a negative column number counted from the end); and return
  c[j,0] + c[j,1]·a + c[j,2]·b + c[j,3]·(a·b), summed in the same order.  The kernel transposes the
  coefficient table to [4, N] and does the arithmetic block by block in a Pallas region (8 × 4 blocks
  of 512 × 2048); the reference slices the [N, 4] table column by column and broadcasts on the host.
  The coefficient tables are the same term of the logits and the gathers the same term of x and the
  column numbers, so no law of the extended reals is needed beyond reading both layouts at an index.

  The two programs differ on a column number outside −8192 … 8191: the kernel's `jnp.take` fills such a
  column with NaN where the reference's indexing clamps.  The precondition therefore asks, beside
  finite float inputs, that every column number be in that range — the range in which it names a
  column of x at all — and under it the take's bounds test passes everywhere and the fill is never
  selected.

  The frames of the two kernel programs are the generated ones; the reference's frame is its run with
  the result dropped.  The ideal pass rewrote nothing, so `preserves` has nothing to state.
-/
import proofs.«422701_j68358699483224_2_alg».proof.Defs
import proofs.«422701_j68358699483224_2_alg».proof.Proof.Gen.Kernel
import proofs.«422701_j68358699483224_2_alg».proof.Proof.Gen.Kernel.Skeleton
import proofs.«422701_j68358699483224_2_alg».proof.Proof.Gen.Kernel.Launch
import proofs.«422701_j68358699483224_2_alg».proof.Proof.Gen.Kernel.Points
import proofs.«422701_j68358699483224_2_alg».proof.Proof.Gen.Kernel.Frame
import proofs.«422701_j68358699483224_2_alg».proof.Proof.Gen.KernelIdeal
import proofs.«422701_j68358699483224_2_alg».proof.Proof.Gen.KernelIdeal.Skeleton
import proofs.«422701_j68358699483224_2_alg».proof.Proof.Gen.KernelIdeal.Launch
import proofs.«422701_j68358699483224_2_alg».proof.Proof.Gen.KernelIdeal.Points
import proofs.«422701_j68358699483224_2_alg».proof.Proof.Gen.KernelIdeal.Frame
import proofs.«422701_j68358699483224_2_alg».proof.Proof.Gen.KernelIdeal.Value
import proofs.«422701_j68358699483224_2_alg».proof.Proof.Gen.ReferenceIdeal
import proofs.«422701_j68358699483224_2_alg».proof.Proof.Gen.Pre_finite_inputs
import proofs.«422701_j68358699483224_2_alg».proof.Proof.Mix
import proofs.«422701_j68358699483224_2_alg».proof.Proof.Words
import proofs.«422701_j68358699483224_2_alg».proof.Proof.PreDecode
import proofs.«422701_j68358699483224_2_alg».proof.Proof.KernelHost
import proofs.«422701_j68358699483224_2_alg».proof.Proof.KernelValue
import proofs.«422701_j68358699483224_2_alg».proof.Proof.TakeInRange
import proofs.«422701_j68358699483224_2_alg».proof.Proof.RefRun
import proofs.«422701_j68358699483224_2_alg».proof.Proof.RefValue
import Idealize.ShloMosaic.Adequacy
import Idealize.ShloMosaic.Init

noncomputable section

namespace Cert.Proof

open Idealize.ShloMosaic Idealize.ShloMosaic.TcCoe Idealize.SL.Sem Cert.GateMix

/-- The two programs build their coefficient tables by the same operations of the logits. -/
theorem coef_eq (w : FVec Ideal Cert.KernelIdeal.S8192x16 .f32) :
    Cert.KernelIdeal.Gates.coef (F := Ideal) w = Cert.ReferenceIdeal.Gates.coef (F := Ideal) w := rfl

/-- And gather the named columns of x by the same operations. -/
theorem cols_eq (x : FVec Ideal Cert.KernelIdeal.S4096x8192 .f32) (i : IVec Cert.KernelIdeal.S8192 32) :
    Cert.KernelIdeal.Gates.cols (F := Ideal) x i = Cert.ReferenceIdeal.Gates.cols (F := Ideal) x i := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Gates.run (F := Ideal) m ρ)

/-- The kernel's result array, under the precondition, is the mixture of its coefficient table and
    its two arrays of gathered columns. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gen.dats m 0 c).arrAt 3 Cert.KernelIdeal.cfg0.N
      = mix (Cert.KernelIdeal.Gates.coef (F := Ideal) (m ((c.tc : Thread Cert.KernelIdeal.nD Cert.KernelIdeal.τ).loc Cert.KernelIdeal.main_arg1)))
          (Cert.KernelIdeal.Gates.cols (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg2)))
          (Cert.KernelIdeal.Gates.cols (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg3))) := by
  obtain ⟨hr0, hr1⟩ := Cert.Pre_finite_inputs.Decode.ranges _ _ _ _ (hpre c)
  refine (Cert.KernelIdeal.Gates.final m c).trans ?_
  have eT : Cert.KernelIdeal.Gates.tblArr m c = _ := Cert.KernelIdeal.Gates.V_coefT m c
  have eA : Cert.KernelIdeal.Gates.aArr m c = _ := Cert.KernelIdeal.Gates.V_take0 m c
  have eB : Cert.KernelIdeal.Gates.bArr m c = _ := Cert.KernelIdeal.Gates.V_take1 m c
  rw [eT, eA, eB, Cert.KernelIdeal.Gates.take_eq_cols _ _ hr0, Cert.KernelIdeal.Gates.take_eq_cols _ _ hr1]
  exact rowMix_transpose _ _ _ _

/-- From memories agreeing on the arguments both programs end with the same array: the mixture. -/
theorem algebraic : Cert.algebraic_KernelIdeal_ReferenceIdeal := by
  intro m ρ m' ρ' hpre hagree
  refine ⟨fun c => mix (Cert.KernelIdeal.Gates.coef (F := Ideal) (m ((c.tc : Thread Cert.KernelIdeal.nD Cert.KernelIdeal.τ).loc Cert.KernelIdeal.main_arg1)))
      (Cert.KernelIdeal.Gates.cols (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (Cert.KernelIdeal.Gates.cols (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg3))), ?_, ?_⟩
  · exact (θ_run Cert.KernelIdeal.defs _ _).mono (fun r h c => ⟨(h c).1.trans (kernel_value m hpre c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Gates.run (F := Ideal) m' ρ')
    rw [(hagree c).1, (hagree c).2.1, (hagree c).2.2.1, (hagree c).2.2.2]
    unfold Cert.ReferenceIdeal.Gates.mixture
    rw [Cert.ReferenceIdeal.Gates.combine_eq_mix, ← coef_eq, ← cols_eq, ← cols_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
